-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x128 .f32) (main_arg1 : FVec F S128x64 .f32) (main_arg2 : FVec F S64 .f32) (main_arg3 : FVec F S64x32 .f32) (main_arg4 : FVec F S32 .f32) (main_arg5 : IVec S2x800000 32) (main_arg6 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S50000x128 : Shape := ⟨2, ![50000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S2x1600000 : Shape := ⟨2, ![2, 1600000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S32x50000 : Shape := ⟨2, ![32, 50000]⟩
abbrev S1x1600000 : Shape := ⟨2, ![1, 1600000]⟩
abbrev S1600000 : Shape := ⟨1, ![1600000]⟩
abbrev S1600000x1 : Shape := ⟨2, ![1600000, 1]⟩
abbrev S32x1600000 : Shape := ⟨2, ![32, 1600000]⟩
abbrev S32x1605632 : Shape := ⟨2, ![32, 1605632]⟩
abbrev S1605632 : Shape := ⟨1, ![1605632]⟩
abbrev S32x16384 : Shape := ⟨2, ![32, 16384]⟩
abbrev S16384 : Shape := ⟨1, ![16384]⟩

abbrev nBuf : Space → Nat
  | .hbm => 121
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x800000, .i32⟩
  | .hbm, ⟨6, _⟩ => ⟨S2x1600000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S50000x32, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x32, .f32⟩
  | .hbm, ⟨80, _⟩ => ⟨S850000x1, .f32⟩
  | .hbm, ⟨81, _⟩ => ⟨S850000x32, .f32⟩
  | .hbm, ⟨82, _⟩ => ⟨S850000x32, .f32⟩
  | .hbm, ⟨83, _⟩ => ⟨S_, .f32⟩
  | .hbm, ⟨84, _⟩ => ⟨S50000x32, .f32⟩
  | .hbm, ⟨85, _⟩ => ⟨S850000x1, .i32⟩
  | .hbm, ⟨86, _⟩ => ⟨S50000x32, .f32⟩
  | .hbm, ⟨87, _⟩ => ⟨S1x32, .f32⟩
  | .hbm, ⟨88, _⟩ => ⟨S50000x32, .f32⟩
  | .hbm, ⟨89, _⟩ => ⟨S50000x32, .f32⟩
  | .hbm, ⟨90, _⟩ => ⟨S32x50000, .f32⟩
  | .hbm, ⟨91, _⟩ => ⟨S1x1600000, .i32⟩
  | .hbm, ⟨92, _⟩ => ⟨S1600000, .i32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S32x1600000, .f32⟩
  | .hbm, ⟨102, _⟩ => ⟨S1x1600000, .i32⟩
  | .hbm, ⟨103, _⟩ => ⟨S1600000, .i32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S32x1600000, .f32⟩
  | .hbm, ⟨113, _⟩ => ⟨S_, .i32⟩
  | .hbm, ⟨114, _⟩ => ⟨S_, .f32⟩
  | .hbm, ⟨115, _⟩ => ⟨S32x1605632, .f32⟩
  | .hbm, ⟨116, _⟩ => ⟨S_, .i32⟩
  | .hbm, ⟨117, _⟩ => ⟨S_, .f32⟩
  | .hbm, ⟨118, _⟩ => ⟨S32x1605632, .f32⟩
  | .hbm, ⟨119, _⟩ => ⟨S1605632, .f32⟩
  | .hbm, ⟨120, _⟩ => ⟨S1600000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | .local _ .vmem, ⟨10, _⟩ => ⟨S32x16384, .f32⟩
  | .local _ .vmem, ⟨11, _⟩ => ⟨S32x16384, .f32⟩
  | .local _ .vmem, ⟨12, _⟩ => ⟨S32x16384, .f32⟩
  | .local _ .vmem, ⟨13, _⟩ => ⟨S32x16384, .f32⟩
  | .local _ .vmem, ⟨14, _⟩ => ⟨S16384, .f32⟩
  | .local _ .vmem, ⟨15, _⟩ => ⟨S16384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_14 : Ref sig .tc := ⟨.hbm, 104, rfl⟩
abbrev main_v77 : Ref sig .tc := ⟨.hbm, 105, rfl⟩
abbrev main_v78 : Ref sig .tc := ⟨.hbm, 106, rfl⟩
abbrev main_c_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_16 : Ref sig .tc := ⟨.hbm, 113, rfl⟩
abbrev main_call2_v0 : Ref sig .tc := ⟨.hbm, 114, rfl⟩
abbrev main_v84 : Ref sig .tc := ⟨.hbm, 115, rfl⟩
abbrev main_c_17 : Ref sig .tc := ⟨.hbm, 116, rfl⟩
abbrev main_call3_v0 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S32x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S50000x32_S32x50000_1_0 : S50000x32.Transposes [1, 0] S32x50000
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  pads_S32x1600000_S32x1605632_000_056320 : S32x1600000.Pads (![0, 0] : Fin 2 → Nat) ![0, 5632] ![0, 0] S32x1605632
  h_S_ : 0 < S_.numel
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  reduces_S32x16384_S16384 : S32x16384.Reduces [0] S16384
  inb_S16384_S16384_0 : ∀ a, (![0] : Fin 1 → Nat) a + S16384.size a ≤ S16384.size a
  h_S16384 : 0 < S16384.numel
  slices_S1605632_S1600000_0 : S1605632.Slices ![0] S1600000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  gather_S32x50000_S1600000x1_S32x1600000_0_1_n_n_1_1_321_wf : GatherDims.WF S32x50000 S1600000x1 S32x1600000 [0] [1] [] [1] [] 1 ![32, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x16384.size a ≤ S32x1605632.size a
  hwx2_0 : ∀ i : grid2.Coords, EltTy.bits .f32 = 32 ∨ (Rect.block (s := S32x1605632) S32x16384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x16384.size a ≤ S32x1605632.size a
  hwx2_1 : ∀ i : grid2.Coords, EltTy.bits .f32 = 32 ∨ (Rect.block (s := S32x1605632) S32x16384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384.size a ≤ S1605632.size a
  hwx2_2 : ∀ i : grid2.Coords, EltTy.bits .f32 = 32 ∨ (Rect.block (s := S1605632) S16384.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def gather_S32x50000_S1600000x1_S32x1600000_0_1_n_n_1_1_321 : GatherDims S32x50000 S1600000x1 S32x1600000 where
  offsetDims := [0]
  collapsedSliceDims := [1]
  operandBatchingDims := []
  startIndicesBatchingDims := []
  startIndexMap := [1]
  indexVectorDim := 1
  sliceSizes := ![32, 1]
  wf := gather_S32x50000_S1600000x1_S32x1600000_0_1_n_n_1_1_321_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S32x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S32x16384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S16384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S2x1600000 : Shape := ⟨2, ![2, 1600000]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S1x1600000 : Shape := ⟨2, ![1, 1600000]⟩
abbrev S1600000 : Shape := ⟨1, ![1600000]⟩
abbrev S1600000x1 : Shape := ⟨2, ![1600000, 1]⟩
abbrev S1600000x32 : Shape := ⟨2, ![1600000, 32]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x32, .f32⟩
  | 4 => ⟨S32, .f32⟩
  | 5 => ⟨S2x800000, .i32⟩
  | 6 => ⟨S2x1600000, .i32⟩
  | 7 => ⟨S1x800000, .i32⟩
  | 8 => ⟨S800000, .i32⟩
  | 9 => ⟨S1x800000, .i32⟩
  | 10 => ⟨S800000, .i32⟩
  | 11 => ⟨S50000x64, .f32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x32, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x32, .f32⟩
  | 116 => ⟨S850000x1, .f32⟩
  | 117 => ⟨S850000x32, .f32⟩
  | 118 => ⟨S850000x32, .f32⟩
  | 119 => ⟨S_, .f32⟩
  | 120 => ⟨S50000x32, .f32⟩
  | 121 => ⟨S850000x1, .i32⟩
  | 122 => ⟨S50000x32, .f32⟩
  | 123 => ⟨S1x32, .f32⟩
  | 124 => ⟨S50000x32, .f32⟩
  | 125 => ⟨S50000x32, .f32⟩
  | 126 => ⟨S1x1600000, .i32⟩
  | 127 => ⟨S1600000, .i32⟩
  | _ => ⟨S50000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x32, .f32⟩
  | 20 => ⟨S1600000x32, .f32⟩
  | 21 => ⟨S_, .f32⟩
  | 22 => ⟨S1600000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  reducesTo_S1600000x32_S1600000_d1 : S1600000x32.ReducesTo [1] S1600000
  h_S_ : 0 < S_.numel
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  gather_S50000x32_S1600000x1_S1600000x32_1_0_n_n_0_1_132_wf : GatherDims.WF S50000x32 S1600000x1 S1600000x32 [1] [0] [] [0] [] 1 ![1, 32]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf

class Facts : Prop extends Facts₀ where

variable [Facts]
-- ==== Proof.HostPrefix.lean ====
/-
  What the first region finds when it is entered: the host operations before it leave the edge list with the self loops
  appended (sources and targets), and the symmetric normalisation d(s)^(-1/2) · d(t)^(-1/2) per edge, d the in-degree
  counted by a scatter of ones (zero where a node has no edge); these are, operation for operation, the reference's own
  stages. Read one stretch at a time, each from an arbitrary valuation whose entries are named by hypotheses.
  The arguments are untouched.
-/
import proofs.«147280_j47339129537012_1_alg».proof.Proof.Gen.KernelIdeal.Frame
import proofs.«147280_j47339129537012_1_alg».proof.Proof.RefReadPatched
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable {F : FTy → Type} [FloatOps F]

section Stretches

variable (Wv : Valuation τ sig (Elt F))
variable (x5 : (⟨Cert.ReferenceIdeal.S2x800000, .i32⟩ : BufTy).Contents (Elt F))

/-! ### The first stretch: the edge list with self loops, the in-degree, its test and its inverse square root -/

theorem first_src (h : Wv (Proc.devRef .tc main_arg5) = x5) : StableHlo.after hostOps0 Wv (Proc.devRef .tc main_v5) = Cert.ReferenceIdeal.ReadP.val_main_v6 (F := F) x5 := by
  after_results
  rw [h]
  rfl
theorem first_dst (h : Wv (Proc.devRef .tc main_arg5) = x5) : StableHlo.after hostOps0 Wv (Proc.devRef .tc main_v6) = Cert.ReferenceIdeal.ReadP.val_main_v7 (F := F) x5 := by
  after_results
  rw [h]
  rfl
theorem first_degPos (h : Wv (Proc.devRef .tc main_arg5) = x5) : StableHlo.after hostOps0 Wv (Proc.devRef .tc main_v12) = Cert.ReferenceIdeal.ReadP.val_main_v13 (F := F) x5 := by
  after_results
  rw [h]
  rfl
theorem first_degRsqrt (h : Wv (Proc.devRef .tc main_arg5) = x5) : StableHlo.after hostOps0 Wv (Proc.devRef .tc main_v13) = Cert.ReferenceIdeal.ReadP.val_main_v14 (F := F) x5 := by
  after_results
  rw [h]
  rfl
theorem first_zero : StableHlo.after hostOps0 Wv (Proc.devRef .tc main_cst_2) = Cert.ReferenceIdeal.ReadP.val_main_cst_2 (F := F) := by
  after_results
  rfl

/-! ### The second stretch: zero where the degree is not positive -/

theorem second_dinv (hp : Wv (Proc.devRef .tc main_v12) = Cert.ReferenceIdeal.ReadP.val_main_v13 (F := F) x5) (hr : Wv (Proc.devRef .tc main_v13) = Cert.ReferenceIdeal.ReadP.val_main_v14 (F := F) x5)
    (hz : Wv (Proc.devRef .tc main_cst_2) = Cert.ReferenceIdeal.ReadP.val_main_cst_2 (F := F)) :
    StableHlo.after hostOps0_1 Wv (Proc.devRef .tc main_v14) = Cert.ReferenceIdeal.ReadP.val_main_v15 (F := F) x5 := by
  after_results
  rw [hp, hr, hz]
  rfl
theorem second_keeps_src : StableHlo.after hostOps0_1 Wv (Proc.devRef .tc main_v5) = Wv (Proc.devRef .tc main_v5) := by
  after_results
theorem second_keeps_dst : StableHlo.after hostOps0_1 Wv (Proc.devRef .tc main_v6) = Wv (Proc.devRef .tc main_v6) := by
  after_results

/-! ### The third stretch: the normalisation gathered at both ends of every edge -/

set_option maxHeartbeats 4000000 in
theorem third_norm (hs : Wv (Proc.devRef .tc main_v5) = Cert.ReferenceIdeal.ReadP.val_main_v6 (F := F) x5) (hd : Wv (Proc.devRef .tc main_v6) = Cert.ReferenceIdeal.ReadP.val_main_v7 (F := F) x5)
    (hv : Wv (Proc.devRef .tc main_v14) = Cert.ReferenceIdeal.ReadP.val_main_v15 (F := F) x5) :
    StableHlo.after hostOps0_2 Wv (Proc.devRef .tc main_v29) = Cert.ReferenceIdeal.ReadP.val_main_v30 (F := F) x5 := by
  after_results_simp
  rw [hs, hd, hv]
  rfl
theorem third_keeps_src : StableHlo.after hostOps0_2 Wv (Proc.devRef .tc main_v5) = Wv (Proc.devRef .tc main_v5) := by
  after_results
theorem third_keeps_dst : StableHlo.after hostOps0_2 Wv (Proc.devRef .tc main_v6) = Wv (Proc.devRef .tc main_v6) := by
  after_results

end Stretches

/-! ### At the first region's entry -/

variable (m : (ℓ : Loc nD τ sig) → Buf (Elt F) ℓ) (ρ : Dev nD → PrngReg) (c : Dev nD)

theorem launch_arg5 : W0 m ρ c (Proc.devRef .tc main_arg5) = m ((c : Thread nD τ).loc main_arg5) := rfl

/-- Source nodes of the edges, self loops appended. -/
theorem entry0_src : W3 m ρ c (Proc.devRef .tc main_v5) = Cert.ReferenceIdeal.ReadP.val_main_v6 (F := F) (m ((c : Thread nD τ).loc main_arg5)) :=
  (third_keeps_src (W2 m ρ c)).trans ((second_keeps_src (W1 m ρ c)).trans (first_src (W0 m ρ c) _ (launch_arg5 m ρ c)))

/-- Target nodes of the edges, self loops appended. -/
theorem entry0_dst : W3 m ρ c (Proc.devRef .tc main_v6) = Cert.ReferenceIdeal.ReadP.val_main_v7 (F := F) (m ((c : Thread nD τ).loc main_arg5)) :=
  (third_keeps_dst (W2 m ρ c)).trans ((second_keeps_dst (W1 m ρ c)).trans (first_dst (W0 m ρ c) _ (launch_arg5 m ρ c)))

/-- The per-edge normalisation. -/
theorem entry0_norm : W3 m ρ c (Proc.devRef .tc main_v29) = Cert.ReferenceIdeal.ReadP.val_main_v30 (F := F) (m ((c : Thread nD τ).loc main_arg5)) :=
  third_norm (W2 m ρ c) _
    ((second_keeps_src (W1 m ρ c)).trans (first_src (W0 m ρ c) _ (launch_arg5 m ρ c)))
    ((second_keeps_dst (W1 m ρ c)).trans (first_dst (W0 m ρ c) _ (launch_arg5 m ρ c)))
    (second_dinv (W1 m ρ c) _ (first_degPos (W0 m ρ c) _ (launch_arg5 m ρ c)) (first_degRsqrt (W0 m ρ c) _ (launch_arg5 m ρ c)) (first_zero (W0 m ρ c)))

theorem entry0_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem entry0_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results

theorem entry0_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem entry0_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

theorem entry0_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

theorem entry0_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

theorem entry0_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results

end Cert.KernelIdeal.Bridge

end
-- ==== Proof.HostLayers.lean ====
/-
  The host operations between the regions, as functions of what they find.
  After the first product: gather its rows at the edge sources, scale by the edge normalisation, scatter-add at the edge
  targets, add the bias, clamp at zero: the reference's hidden layer, once the product is its `dot_general`.
  After the second product: the same aggregation with the second bias gives the node embeddings; their transpose is
  gathered column-wise at the decode indices (negative indices wrapped by the table's length) and padded with zero
  columns up to a whole number of column blocks.
  Every statement is about ONE stretch run from an arbitrary valuation, whose entries are named by hypotheses; the two
  sides are then the same operations of the same stages.
-/
import proofs.«147280_j47339129537012_1_alg».proof.Proof.Gen.KernelIdeal.Frame
import proofs.«147280_j47339129537012_1_alg».proof.Proof.RefReadPatched
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable {F : FTy → Type} [FloatOps F]

/-- Columns of the transposed table gathered at the wrapped indices, zero columns appended on the right. -/
def paddedColsAt (Z : S50000x32.Idx → Elt F .f32) (i : S1600000.Idx → BitVec 32) : S32x1605632.Idx → Elt F .f32 :=
  pad S32x1605632 ![0, 0] ![0, 5632] ![0, 0]
    (Host.gather gather_S32x50000_S1600000x1_S32x1600000_0_1_n_n_1_1_321
      (transpose S32x50000 [1, 0] Z transposes_S50000x32_S32x50000_1_0)
      (broadcastInDim S1600000x1 ![0] bcast_S1600000_S1600000x1_0 i))
    (sitofp (F := F) .f32 (constantI S_ 32 0#32)) pads_S32x1600000_S32x1605632_000_056320 h_S_

variable (Wv : Valuation τ sig (Elt F))
variable (x0 : (⟨Cert.ReferenceIdeal.S50000x128, .f32⟩ : BufTy).Contents (Elt F)) (x1 : (⟨Cert.ReferenceIdeal.S128x64, .f32⟩ : BufTy).Contents (Elt F))
  (x2 : (⟨Cert.ReferenceIdeal.S64, .f32⟩ : BufTy).Contents (Elt F)) (x3 : (⟨Cert.ReferenceIdeal.S64x32, .f32⟩ : BufTy).Contents (Elt F))
  (x4 : (⟨Cert.ReferenceIdeal.S32, .f32⟩ : BufTy).Contents (Elt F)) (x5 : (⟨Cert.ReferenceIdeal.S2x800000, .i32⟩ : BufTy).Contents (Elt F))
  (x6 : (⟨Cert.ReferenceIdeal.S2x1600000, .i32⟩ : BufTy).Contents (Elt F))

set_option maxHeartbeats 4000000 in
/-- The hidden layer: the stretch after the first product, run from contents whose entries are the reference's stages. -/
theorem hidden_of
    (hxw : Wv (Proc.devRef .tc main_v30) = Cert.ReferenceIdeal.ReadP.val_main_v4 (F := F) x0 x1)
    (hs : Wv (Proc.devRef .tc main_v5) = Cert.ReferenceIdeal.ReadP.val_main_v6 (F := F) x5)
    (hd : Wv (Proc.devRef .tc main_v6) = Cert.ReferenceIdeal.ReadP.val_main_v7 (F := F) x5)
    (hn : Wv (Proc.devRef .tc main_v29) = Cert.ReferenceIdeal.ReadP.val_main_v30 (F := F) x5)
    (hb : Wv (Proc.devRef .tc main_arg2) = x2) :
    StableHlo.after hostOps1_1 (StableHlo.after hostOps1 Wv) (Proc.devRef .tc main_v47) = Cert.ReferenceIdeal.ReadP.val_main_v47 (F := F) x0 x1 x2 x5 := by
  after_results_simp
  rw [hxw, hs, hd, hn, hb]
  rfl

set_option maxHeartbeats 4000000 in
/-- The first padded column gather: the stretch after the second product. -/
theorem colsLeft_of
    (hxw : Wv (Proc.devRef .tc main_v48) = Cert.ReferenceIdeal.ReadP.val_main_v48 (F := F) x0 x1 x2 x3 x5)
    (hs : Wv (Proc.devRef .tc main_v5) = Cert.ReferenceIdeal.ReadP.val_main_v6 (F := F) x5)
    (hd : Wv (Proc.devRef .tc main_v6) = Cert.ReferenceIdeal.ReadP.val_main_v7 (F := F) x5)
    (hn : Wv (Proc.devRef .tc main_v29) = Cert.ReferenceIdeal.ReadP.val_main_v30 (F := F) x5)
    (hb : Wv (Proc.devRef .tc main_arg4) = x4)
    (hi : Wv (Proc.devRef .tc main_arg6) = x6) :
    StableHlo.after hostOps2_3 (StableHlo.after hostOps2_2 (StableHlo.after hostOps2_1 (StableHlo.after hostOps2 Wv))) (Proc.devRef .tc main_v84)
      = paddedColsAt (Cert.ReferenceIdeal.ReadP.val_main_v90 (F := F) x0 x1 x2 x3 x4 x5) (Cert.ReferenceIdeal.ReadP.val_main_v97 (F := F) x6) := by
  after_results_simp
  rw [hxw, hs, hd, hn, hb, hi]
  rfl

set_option maxHeartbeats 4000000 in
/-- The second padded column gather. -/
theorem colsRight_of
    (hxw : Wv (Proc.devRef .tc main_v48) = Cert.ReferenceIdeal.ReadP.val_main_v48 (F := F) x0 x1 x2 x3 x5)
    (hs : Wv (Proc.devRef .tc main_v5) = Cert.ReferenceIdeal.ReadP.val_main_v6 (F := F) x5)
    (hd : Wv (Proc.devRef .tc main_v6) = Cert.ReferenceIdeal.ReadP.val_main_v7 (F := F) x5)
    (hn : Wv (Proc.devRef .tc main_v29) = Cert.ReferenceIdeal.ReadP.val_main_v30 (F := F) x5)
    (hb : Wv (Proc.devRef .tc main_arg4) = x4)
    (hi : Wv (Proc.devRef .tc main_arg6) = x6) :
    StableHlo.after hostOps2_3 (StableHlo.after hostOps2_2 (StableHlo.after hostOps2_1 (StableHlo.after hostOps2 Wv))) (Proc.devRef .tc main_v85)
      = paddedColsAt (Cert.ReferenceIdeal.ReadP.val_main_v90 (F := F) x0 x1 x2 x3 x4 x5) (Cert.ReferenceIdeal.ReadP.val_main_v106 (F := F) x6) := by
  after_results_simp
  rw [hxw, hs, hd, hn, hb, hi]
  rfl

/-! ### What the stretch after the first product leaves untouched -/

theorem mid_keeps_src : StableHlo.after hostOps1_1 (StableHlo.after hostOps1 Wv) (Proc.devRef .tc main_v5) = Wv (Proc.devRef .tc main_v5) := by
  after_results
theorem mid_keeps_dst : StableHlo.after hostOps1_1 (StableHlo.after hostOps1 Wv) (Proc.devRef .tc main_v6) = Wv (Proc.devRef .tc main_v6) := by
  after_results
theorem mid_keeps_norm : StableHlo.after hostOps1_1 (StableHlo.after hostOps1 Wv) (Proc.devRef .tc main_v29) = Wv (Proc.devRef .tc main_v29) := by
  after_results
theorem mid_keeps_arg3 : StableHlo.after hostOps1_1 (StableHlo.after hostOps1 Wv) (Proc.devRef .tc main_arg3) = Wv (Proc.devRef .tc main_arg3) := by
  after_results
theorem mid_keeps_arg4 : StableHlo.after hostOps1_1 (StableHlo.after hostOps1 Wv) (Proc.devRef .tc main_arg4) = Wv (Proc.devRef .tc main_arg4) := by
  after_results
theorem mid_keeps_arg6 : StableHlo.after hostOps1_1 (StableHlo.after hostOps1 Wv) (Proc.devRef .tc main_arg6) = Wv (Proc.devRef .tc main_arg6) := by
  after_results

/-- The last stretch: the first 1600000 entries of the third region's output. -/
theorem tail_of : StableHlo.after hostOps3 Wv (Proc.devRef .tc main_v87)
    = extractStridedSlice S1600000 ![0] (Wv (Proc.devRef .tc main_v86)) slices_S1605632_S1600000_0 := by
  after_results

end Cert.KernelIdeal.Bridge

end
-- ==== Proof.RegionMatmul.lean ====
/-
  The two product regions' output arrays. Each region's body casts a block of 5000 rows of its left operand and the whole
  right operand to bf16, multiplies them into a zero accumulator and stores the block of 5000 result rows; the grid runs
  over the 10 row blocks with the right operand resident. Read as extended reals the casts are identities and the zero
  accumulator adds nothing, so entry (p, q) of a block is the sum over the contraction axis of left (p, k) · right (k, q);
  the row block at point t is rows t·5000 … of the left array, what the point writes back is rows t·5000 … of the whole
  product, and the 10 blocks cover the output (row r lies in block r / 5000): the output array is the host's
  `dot_general` of the two operand arrays. The second region is the first with 64 contraction coordinates and 32 columns.
-/
import proofs.«147280_j47339129537012_1_alg».proof.Proof.Gen.KernelIdeal.Frame
import proofs.«147280_j47339129537012_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-! # The two matmul regions, array by array

Each region runs, over ten row blocks of 5000 rows with the weight held whole, a body that multiplies the row block by the
weight into a zero accumulator. On ideal values the narrowing of the operands is the identity, so each block written back
is the matching block of rows of the whole product, and the ten blocks cover the output array: the array ends holding the
product of the region's two operand arrays. -/

/-! ## Region 0: the body's matmul at an index -/

theorem regionMatmul0_lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem regionMatmul0_lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem regionMatmul0_rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem regionMatmul0_rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One block's product at row `p`, column `q`: the sum over the 128 contraction coordinates of the row block's
    entry times the weight's entry (the narrowing to bf16 is the identity on ideal values and the accumulator is zero). -/
theorem regionMatmul0_payload_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact regionMatmul0_lhs_axis0 _ _
    | ⟨1, _⟩ => exact (regionMatmul0_lhs_axis1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (regionMatmul0_rhs_axis0 _ _).trans hk
    | ⟨1, _⟩ => exact regionMatmul0_rhs_axis1 _ _)
  rw [el, er]
  rfl

/-! ## Region 0: the host product at an index -/

theorem regionMatmul0_host_lhs_axis0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem regionMatmul0_host_lhs_axis1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem regionMatmul0_host_rhs_axis0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem regionMatmul0_host_rhs_axis1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- The whole product at row `r`, column `q`: the same sum over the 128 contraction coordinates. -/
theorem regionMatmul0_host_apply (X : (⟨S50000x128, .f32⟩ : BufTy).Contents (Elt Ideal)) (Wt : (⟨S128x64, .f32⟩ : BufTy).Contents (Elt Ideal))
    (r : Fin 50000) (q : Fin 64) :
    Host.dotGeneral (F := Ideal) (φ₁ := .f32) (φ₂ := .f32) Cert.ReferenceIdeal.dot_S50000x128_S128x64_S50000x64_1_0_0_1_n_n none X Wt (ix2 r q)
      = ∑ k : Fin 128, X (ix2 r k) * Wt (ix2 k q) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r q) ((ValueIdx.contrEquiv1 Cert.ReferenceIdeal.dot_S50000x128_S128x64_S50000x64_1_0_0_1_n_n 128 rfl rfl).symm k) = ix2 r k := funext fun a => Fin.ext (by
    match a with
    | ⟨0, _⟩ => exact regionMatmul0_host_lhs_axis0 _ _
    | ⟨1, _⟩ => exact (regionMatmul0_host_lhs_axis1 _ _).trans hk)
  have er : Cert.ReferenceIdeal.dot_S50000x128_S128x64_S50000x64_1_0_0_1_n_n.rhsIdx (ix2 r q) ((ValueIdx.contrEquiv1 Cert.ReferenceIdeal.dot_S50000x128_S128x64_S50000x64_1_0_0_1_n_n 128 rfl rfl).symm k) = ix2 k q := funext fun a => Fin.ext (by
    match a with
    | ⟨0, _⟩ => exact (regionMatmul0_host_rhs_axis0 _ _).trans hk
    | ⟨1, _⟩ => exact regionMatmul0_host_rhs_axis1 _ _)
  rw [el, er]

/-! ## Region 0: the blocks' places in the arrays -/

theorem regionMatmul0_offsets_zero : (![0, 0] : Fin 2 → Nat) = fun _ => 0 := funext fun a => by fin_cases a <;> rfl

/-- At grid point `t` the row window and the output window sit at row block `t`, column block 0; the weight window
    at block (0, 0). Decided over the ten points. -/
theorem regionMatmul0_index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-! ## Region 0: what a grid point writes back is its block of the whole product -/

/-- A row block that is rows `b * 5000 …` of `X`, against the whole weight, gives rows `b * 5000 …` of the whole product. -/
theorem regionMatmul0_block_apply (X : (⟨S50000x128, .f32⟩ : BufTy).Contents (Elt Ideal)) (Wt : (⟨S128x64, .f32⟩ : BufTy).Contents (Elt Ideal))
    (x0 : Vec Ideal S5000x128 .f32) (x1 : Vec Ideal S128x64 .f32) (b : Nat) (hb : b < 10)
    (h0 : ∀ (p : Fin 5000) (k : Fin 128), x0 (ix2 p k) = X (ix2 (⟨b * 5000 + p.val, by have := p.isLt; omega⟩ : Fin 50000) k))
    (h1 : ∀ (k : Fin 128) (q : Fin 64), x1 (ix2 k q) = Wt (ix2 k q)) (p : Fin 5000) (q : Fin 64) :
    k0_pay1 (F := Ideal) x0 x1 (ix2 p q)
      = Host.dotGeneral (F := Ideal) (φ₁ := .f32) (φ₂ := .f32) Cert.ReferenceIdeal.dot_S50000x128_S128x64_S50000x64_1_0_0_1_n_n none X Wt
          (ix2 (⟨b * 5000 + p.val, by have := p.isLt; omega⟩ : Fin 50000) q) := by
  rw [regionMatmul0_payload_apply, regionMatmul0_host_apply]
  exact Finset.sum_congr rfl fun k _ => by rw [h0, h1]

/-- What grid point `t` writes back to the output array is block `t` of the whole product of the two operand arrays
    as the region finds them. -/
theorem regionMatmul0_flushed_eq (t : Fin cfg0.N) :
    (dat0 (F := Ideal) V c).flushed 2 t
      = ((cfg0.win 2).blk t).view.read (Elt Ideal)
          (Host.dotGeneral (F := Ideal) (φ₁ := .f32) (φ₂ := .f32) Cert.ReferenceIdeal.dot_S50000x128_S128x64_S50000x64_1_0_0_1_n_n none (V c main_arg0) (V c main_arg1)) := by
  show (cfg0.win 2).cut (grid0.coords t) ((dat0 V c).after 2 t) = _
  rw [after0_2]
  unfold out0_2
  rw [View.canon_unit_zero regionMatmul0_offsets_zero]
  simp only [View.ld_unit_zero (S := S5000x128) regionMatmul0_offsets_zero, View.ld_unit_zero (S := S128x64) regionMatmul0_offsets_zero]
  obtain ⟨e0, e1, e2, e3, e4, e5⟩ := regionMatmul0_index_facts t
  have ht : t.val < 10 := lt_of_lt_of_eq t.isLt N_0
  funext j
  obtain ⟨p, q, rfl⟩ : ∃ (p : Fin 5000) (q : Fin 64), j = ix2 p q := ⟨j 0, j 1, eq_ix2 j⟩
  have hemb : ((cfg0.win 2).blk t).view.emb (ix2 p q) = ix2 (⟨t.val * 5000 + p.val, by have := p.isLt; omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  have h0 : ∀ (p : Fin 5000) (k : Fin 128), iblk0 V c 0 t (ix2 p k) = V c main_arg0 (ix2 (⟨t.val * 5000 + p.val, by have := p.isLt; omega⟩ : Fin 50000) k) := by
    intro p k
    show V c main_arg0 (((cfg0.win 0).blk t).view.emb (ix2 p k)) = V c main_arg0 _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ (k : Fin 128) (q : Fin 64), iblk0 V c 1 t (ix2 k q) = V c main_arg1 (ix2 k q) := by
    intro k q
    show V c main_arg1 (((cfg0.win 1).blk t).view.emb (ix2 k q)) = V c main_arg1 _
    refine congrArg _ ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  show k0_pay1 (F := Ideal) (iblk0 V c 0 t) (iblk0 V c 1 t) (ix2 p q)
      = Host.dotGeneral (F := Ideal) (φ₁ := .f32) (φ₂ := .f32) Cert.ReferenceIdeal.dot_S50000x128_S128x64_S50000x64_1_0_0_1_n_n none (V c main_arg0) (V c main_arg1)
          (((cfg0.win 2).blk t).view.emb (ix2 p q))
  rw [hemb]
  exact regionMatmul0_block_apply (V c main_arg0) (V c main_arg1) (iblk0 V c 0 t) (iblk0 V c 1 t) t.val ht h0 h1 p q

/-- An index of the output array is in point `t`'s block iff each coordinate is in the block's range on its axis. -/
theorem regionMatmul0_mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the output array is in some point's block: row `r` is in block `r / 5000`. -/
theorem regionMatmul0_cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨e0, e1, e2, e3, e4, e5⟩ := regionMatmul0_index_facts t
  refine ⟨t, flush0_2 t, ?_⟩
  rw [regionMatmul0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

theorem region0_array (X : (⟨S50000x128, .f32⟩ : BufTy).Contents (Elt Ideal)) (Wt : (⟨S128x64, .f32⟩ : BufTy).Contents (Elt Ideal))
    (hX : V c main_arg0 = X) (hW : V c main_arg1 = Wt) :
    (dat0 (F := Ideal) V c).arrAt 2 cfg0.N
      = Host.dotGeneral (F := Ideal) (φ₁ := .f32) (φ₂ := .f32) Cert.ReferenceIdeal.dot_S50000x128_S128x64_S50000x64_1_0_0_1_n_n none X Wt := by
  subst hX hW
  exact (dat0 (F := Ideal) V c).arrAt_eq_of_cover 2 _ (fun t _ => regionMatmul0_flushed_eq V c t) regionMatmul0_cover

/-! ## Region 1: the body's matmul at an index -/

theorem regionMatmul1_lhs_axis0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem regionMatmul1_lhs_axis1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem regionMatmul1_rhs_axis0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem regionMatmul1_rhs_axis1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- One block's product at row `p`, column `q`: the sum over the 64 contraction coordinates of the row block's
    entry times the weight's entry (the same-shape cast and the narrowing to bf16 are the identity on ideal values and the accumulator is zero). -/
theorem regionMatmul1_payload_apply (x0 : Vec Ideal S5000x64 .f32) (x1 : Vec Ideal S64x32 .f32) (p : Fin 5000) (q : Fin 32) :
    k1_pay1 (F := Ideal) x0 x1 (ix2 p q) = ∑ k : Fin 64, x0 (ix2 p k) * x1 (ix2 k q) := by
  unfold k1_pay1
  rw [shapeCast_self]
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact regionMatmul1_lhs_axis0 _ _
    | ⟨1, _⟩ => exact (regionMatmul1_lhs_axis1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (regionMatmul1_rhs_axis0 _ _).trans hk
    | ⟨1, _⟩ => exact regionMatmul1_rhs_axis1 _ _)
  rw [el, er]
  rfl

/-! ## Region 1: the host product at an index -/

theorem regionMatmul1_host_lhs_axis0 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x32_S50000x32_1_0_0_1_n_n.lhsBatch by decide), dif_pos (show (0 : Fin Cert.ReferenceIdeal.S50000x64.rank) ∈ Cert.ReferenceIdeal.dot_S50000x64_S64x32_S50000x32_1_0_0_1_n_n.lhsNonContracting by decide)]
  rfl
theorem regionMatmul1_host_lhs_axis1 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 1).val = (q ⟨0, by decide⟩).val :=
  Cert.ReferenceIdeal.dot_S50000x64_S64x32_S50000x32_1_0_0_1_n_n.lhsIdx_val_of_single rfl i q
theorem regionMatmul1_host_rhs_axis0 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 0).val = (q ⟨0, by decide⟩).val :=
  Cert.ReferenceIdeal.dot_S50000x64_S64x32_S50000x32_1_0_0_1_n_n.rhsIdx_val_of_single rfl i q
theorem regionMatmul1_host_rhs_axis1 (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 1).val = (i 1).val := by
  unfold DotDims.rhsIdx
  rw [dif_neg (show ¬(1 : Fin Cert.ReferenceIdeal.S64x32.rank) ∈ Cert.ReferenceIdeal.dot_S50000x64_S64x32_S50000x32_1_0_0_1_n_n.rhsBatch by decide), dif_pos (show (1 : Fin Cert.ReferenceIdeal.S64x32.rank) ∈ Cert.ReferenceIdeal.dot_S50000x64_S64x32_S50000x32_1_0_0_1_n_n.rhsNonContracting by decide)]
  rfl

/-- The whole product at row `r`, column `q`: the same sum over the 64 contraction coordinates. -/
theorem regionMatmul1_host_apply (X : (⟨S50000x64, .f32⟩ : BufTy).Contents (Elt Ideal)) (Wt : (⟨S64x32, .f32⟩ : BufTy).Contents (Elt Ideal))
    (r : Fin 50000) (q : Fin 32) :
    Host.dotGeneral (F := Ideal) (φ₁ := .f32) (φ₂ := .f32) Cert.ReferenceIdeal.dot_S50000x64_S64x32_S50000x32_1_0_0_1_n_n none X Wt (ix2 r q)
      = ∑ k : Fin 64, X (ix2 r k) * Wt (ix2 k q) := by
  simp only [Host.dotGeneral]
  rw [Ideal.dotGeneral_apply, ← Equiv.sum_comp (ValueIdx.contrEquiv1 Cert.ReferenceIdeal.dot_S50000x64_S64x32_S50000x32_1_0_0_1_n_n 64 rfl rfl).symm]
  refine Finset.sum_congr rfl fun k _ => ?_
  have hk := ValueIdx.contrEquiv1_symm_val Cert.ReferenceIdeal.dot_S50000x64_S64x32_S50000x32_1_0_0_1_n_n 64 rfl rfl k
  have el : Cert.ReferenceIdeal.dot_S50000x64_S64x32_S50000x32_1_0_0_1_n_n.lhsIdx (ix2 r q) ((ValueIdx.contrEquiv1 Cert.ReferenceIdeal.dot_S50000x64_S64x32_S50000x32_1_0_0_1_n_n 64 rfl rfl).symm k) = ix2 r k := funext fun a => Fin.ext (by
    match a with
    | ⟨0, _⟩ => exact regionMatmul1_host_lhs_axis0 _ _
    | ⟨1, _⟩ => exact (regionMatmul1_host_lhs_axis1 _ _).trans hk)
  have er : Cert.ReferenceIdeal.dot_S50000x64_S64x32_S50000x32_1_0_0_1_n_n.rhsIdx (ix2 r q) ((ValueIdx.contrEquiv1 Cert.ReferenceIdeal.dot_S50000x64_S64x32_S50000x32_1_0_0_1_n_n 64 rfl rfl).symm k) = ix2 k q := funext fun a => Fin.ext (by
    match a with
    | ⟨0, _⟩ => exact (regionMatmul1_host_rhs_axis0 _ _).trans hk
    | ⟨1, _⟩ => exact regionMatmul1_host_rhs_axis1 _ _)
  rw [el, er]

/-! ## Region 1: the blocks' places in the arrays -/

theorem regionMatmul1_offsets_zero : (![0, 0] : Fin 2 → Nat) = fun _ => 0 := funext fun a => by fin_cases a <;> rfl

/-- At grid point `t` the row window and the output window sit at row block `t`, column block 0; the weight window
    at block (0, 0). Decided over the ten points. -/
theorem regionMatmul1_index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-! ## Region 1: what a grid point writes back is its block of the whole product -/

/-- A row block that is rows `b * 5000 …` of `X`, against the whole weight, gives rows `b * 5000 …` of the whole product. -/
theorem regionMatmul1_block_apply (X : (⟨S50000x64, .f32⟩ : BufTy).Contents (Elt Ideal)) (Wt : (⟨S64x32, .f32⟩ : BufTy).Contents (Elt Ideal))
    (x0 : Vec Ideal S5000x64 .f32) (x1 : Vec Ideal S64x32 .f32) (b : Nat) (hb : b < 10)
    (h0 : ∀ (p : Fin 5000) (k : Fin 64), x0 (ix2 p k) = X (ix2 (⟨b * 5000 + p.val, by have := p.isLt; omega⟩ : Fin 50000) k))
    (h1 : ∀ (k : Fin 64) (q : Fin 32), x1 (ix2 k q) = Wt (ix2 k q)) (p : Fin 5000) (q : Fin 32) :
    k1_pay1 (F := Ideal) x0 x1 (ix2 p q)
      = Host.dotGeneral (F := Ideal) (φ₁ := .f32) (φ₂ := .f32) Cert.ReferenceIdeal.dot_S50000x64_S64x32_S50000x32_1_0_0_1_n_n none X Wt
          (ix2 (⟨b * 5000 + p.val, by have := p.isLt; omega⟩ : Fin 50000) q) := by
  rw [regionMatmul1_payload_apply, regionMatmul1_host_apply]
  exact Finset.sum_congr rfl fun k _ => by rw [h0, h1]

/-- What grid point `t` writes back to the output array is block `t` of the whole product of the two operand arrays
    as the region finds them. -/
theorem regionMatmul1_flushed_eq (t : Fin cfg1.N) :
    (dat1 (F := Ideal) V c).flushed 2 t
      = ((cfg1.win 2).blk t).view.read (Elt Ideal)
          (Host.dotGeneral (F := Ideal) (φ₁ := .f32) (φ₂ := .f32) Cert.ReferenceIdeal.dot_S50000x64_S64x32_S50000x32_1_0_0_1_n_n none (V c main_v47) (V c main_arg3)) := by
  show (cfg1.win 2).cut (grid1.coords t) ((dat1 V c).after 2 t) = _
  rw [after1_2]
  unfold out1_2
  rw [View.canon_unit_zero regionMatmul1_offsets_zero]
  simp only [View.ld_unit_zero (S := S5000x64) regionMatmul1_offsets_zero, View.ld_unit_zero (S := S64x32) regionMatmul1_offsets_zero]
  obtain ⟨e0, e1, e2, e3, e4, e5⟩ := regionMatmul1_index_facts t
  have ht : t.val < 10 := lt_of_lt_of_eq t.isLt N_1
  funext j
  obtain ⟨p, q, rfl⟩ : ∃ (p : Fin 5000) (q : Fin 32), j = ix2 p q := ⟨j 0, j 1, eq_ix2 j⟩
  have hemb : ((cfg1.win 2).blk t).view.emb (ix2 p q) = ix2 (⟨t.val * 5000 + p.val, by have := p.isLt; omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 32 + 1 * q.val = q.val; omega
  have h0 : ∀ (p : Fin 5000) (k : Fin 64), iblk1 V c 0 t (ix2 p k) = V c main_v47 (ix2 (⟨t.val * 5000 + p.val, by have := p.isLt; omega⟩ : Fin 50000) k) := by
    intro p k
    show V c main_v47 (((cfg1.win 0).blk t).view.emb (ix2 p k)) = V c main_v47 _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : ∀ (k : Fin 64) (q : Fin 32), iblk1 V c 1 t (ix2 k q) = V c main_arg3 (ix2 k q) := by
    intro k q
    show V c main_arg3 (((cfg1.win 1).blk t).view.emb (ix2 k q)) = V c main_arg3 _
    refine congrArg _ ?_
    funext a; apply Fin.ext
    match a with
    | ⟨0, _⟩ => show win1_1.index t (0 : Fin 2) * 64 + 1 * k.val = k.val; omega
    | ⟨1, _⟩ => show win1_1.index t (1 : Fin 2) * 32 + 1 * q.val = q.val; omega
  show k1_pay1 (F := Ideal) (iblk1 V c 0 t) (iblk1 V c 1 t) (ix2 p q)
      = Host.dotGeneral (F := Ideal) (φ₁ := .f32) (φ₂ := .f32) Cert.ReferenceIdeal.dot_S50000x64_S64x32_S50000x32_1_0_0_1_n_n none (V c main_v47) (V c main_arg3)
          (((cfg1.win 2).blk t).view.emb (ix2 p q))
  rw [hemb]
  exact regionMatmul1_block_apply (V c main_v47) (V c main_arg3) (iblk1 V c 0 t) (iblk1 V c 1 t) t.val ht h0 h1 p q

/-- An index of the output array is in point `t`'s block iff each coordinate is in the block's range on its axis. -/
theorem regionMatmul1_mem_blk (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Every index of the output array is in some point's block: row `r` is in block `r / 5000`. -/
theorem regionMatmul1_cover (i : S50000x32.Idx) :
    ∃ t : Fin cfg1.N, (cfg1.win 2).flush t = true ∧ i ∈ ((cfg1.win 2).blk t).view.set := by
  have hi0 : (i 0).val < 50000 := (i 0).isLt
  have hi1 : (i 1).val < 32 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨e0, e1, e2, e3, e4, e5⟩ := regionMatmul1_index_facts t
  refine ⟨t, flush1_2 t, ?_⟩
  rw [regionMatmul1_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

theorem region1_array (X : (⟨S50000x64, .f32⟩ : BufTy).Contents (Elt Ideal)) (Wt : (⟨S64x32, .f32⟩ : BufTy).Contents (Elt Ideal))
    (hX : V c main_v47 = X) (hW : V c main_arg3 = Wt) :
    (dat1 (F := Ideal) V c).arrAt 2 cfg1.N
      = Host.dotGeneral (F := Ideal) (φ₁ := .f32) (φ₂ := .f32) Cert.ReferenceIdeal.dot_S50000x64_S64x32_S50000x32_1_0_0_1_n_n none X Wt := by
  subst hX hW
  exact (dat1 (F := Ideal) V c).arrAt_eq_of_cover 2 _ (fun t _ => regionMatmul1_flushed_eq V c t) regionMatmul1_cover

end Cert.KernelIdeal.Bridge
end
-- ==== Proof.RegionDotReduce.lean ====
/- The third region's output array, index by index. Its body multiplies two 32×16384 blocks entry by entry and adds
   the 32 rows into a zero accumulator; over the grid of 98 column blocks the output array of 1605632 entries holds, in
   column `e`, the sum over the 32 rows of the products of the two operand arrays' entries in column `e`. First the
   body's result at a column of a block; then each point's written block as a block of that whole-array function, and
   the 98 blocks cover the array (entry `e` lies in block `e / 16384`). -/
import proofs.«147280_j47339129537012_1_alg».proof.Proof.Gen.KernelIdeal.Frame
import proofs.«147280_j47339129537012_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-! ## The body's result at a column: the sum over the 32 rows of the two blocks' products -/

/-- The zero offsets of a rank-1 whole-block access are the constant zero. -/
private theorem dotReduce_zero_offsets₁ : (![0] : Fin 1 → Nat) = fun _ => 0 := funext fun a => by fin_cases a; rfl
/-- The zero offsets of a rank-2 whole-block access are the constant zero. -/
private theorem dotReduce_zero_offsets₂ : (![0, 0] : Fin 2 → Nat) = fun _ => 0 := funext fun a => by fin_cases a <;> rfl

/-- An add-reduction over the row axis of a 32×16384 block, into a zero accumulator, is at column `q` the sum over
    the 32 rows of the block's entries in that column. -/
private theorem dotReduce_lane_sum (src : FVec Ideal S32x16384 .f32) (hφ : FKind.Formats .f32)
    (hacc : (0x00000000#32 : BitVec 32) = 0x00000000#32) (q : Fin 16384) :
    multiReduction (F := Ideal) .add [0] S16384 src 0x00000000#32 reduces_S32x16384_S16384 hφ hacc (ix1 q)
      = ∑ f : Fin 32, src (ix2 f q) := by
  refine (Ideal.multiReduction_add_single src 0x00000000#32 reduces_S32x16384_S16384 hφ hacc (ix1 q)).trans ?_
  refine Finset.sum_congr rfl fun f _ => congrArg src ?_
  exact Shape.idx_ext₂ rfl rfl

/-- What the body leaves in the output block, at column `q`: the two same-shape casts are identities, the product is
    entry by entry, and the reduction adds the 32 rows. -/
private theorem dotReduce_payload_apply (x0 x1 : Vec Ideal S32x16384 .f32) (q : Fin 16384) :
    out2_2 (F := Ideal) x0 x1 (ix1 q) = ∑ f : Fin 32, x0 (ix2 f q) * x1 (ix2 f q) := by
  unfold out2_2
  rw [View.canon_unit_zero dotReduce_zero_offsets₁]
  simp only [View.ld_unit_zero (S := S32x16384) dotReduce_zero_offsets₂]
  unfold k2_pay1
  simp only [shapeCast_self]
  exact dotReduce_lane_sum (mulf (F := Ideal) x0 x1) _ _ q

/-! ## From the 98 column blocks to the whole array -/

/-- The index maps over the grid of 98 points: both operand windows sit at row block 0 and at the output's column
    block, which is the point's number. -/
private theorem dotReduce_idx_facts : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 1) = t.val :=
  (by decide +kernel : ∀ t : Fin grid2.N, _)

/-- The whole-array function: column `e` holds the sum over the 32 rows of the products of the two operand arrays'
    entries in that column. -/
private abbrev dotReduce_whole (A B : S32x1605632.Idx → EReal) : S1605632.Idx → EReal :=
  fun e => ∑ f : Fin 32, A (ix2 f (e 0)) * B (ix2 f (e 0))

/-- The first operand's block at point `t`, at row `f` and column `q`, is the operand array at row `f` and column
    `16384 t + q`. -/
private theorem dotReduce_block_read₀ (A : S32x1605632.Idx → EReal) (hA : V c main_v84 = A) (t : Fin cfg2.N)
    (f : Fin 32) (q : Fin 16384) (k : Fin 1605632) (hk : k.val = t.val * 16384 + q.val) :
    (iblk2 (F := Ideal) V c 0 t : Vec Ideal S32x16384 .f32) (ix2 f q) = A (ix2 f k) := by
  obtain ⟨e0, e1, e2, e3, e4⟩ := dotReduce_idx_facts t
  unfold iblk2
  rw [View.read_apply]
  show V c main_v84 _ = A _
  rw [hA]
  refine congrArg A ?_
  funext a; apply Fin.ext
  match a with
  | ⟨0, _⟩ => show win2_0.index t (0 : Fin 2) * 32 + 1 * f.val = f.val; omega
  | ⟨1, _⟩ => show win2_0.index t (1 : Fin 2) * 16384 + 1 * q.val = k.val; omega

/-- The second operand's block likewise. -/
private theorem dotReduce_block_read₁ (B : S32x1605632.Idx → EReal) (hB : V c main_v85 = B) (t : Fin cfg2.N)
    (f : Fin 32) (q : Fin 16384) (k : Fin 1605632) (hk : k.val = t.val * 16384 + q.val) :
    (iblk2 (F := Ideal) V c 1 t : Vec Ideal S32x16384 .f32) (ix2 f q) = B (ix2 f k) := by
  obtain ⟨e0, e1, e2, e3, e4⟩ := dotReduce_idx_facts t
  unfold iblk2
  rw [View.read_apply]
  show V c main_v85 _ = B _
  rw [hB]
  refine congrArg B ?_
  funext a; apply Fin.ext
  match a with
  | ⟨0, _⟩ => show win2_1.index t (0 : Fin 2) * 32 + 1 * f.val = f.val; omega
  | ⟨1, _⟩ => show win2_1.index t (1 : Fin 2) * 16384 + 1 * q.val = k.val; omega

/-- What point `t` writes back is block `t` of the whole-array function. -/
private theorem dotReduce_flushed_eq (A B : S32x1605632.Idx → EReal) (hA : V c main_v84 = A) (hB : V c main_v85 = B)
    (t : Fin cfg2.N) :
    (dat2 (F := Ideal) V c).flushed 2 t
      = ((cfg2.win 2).blk t).view.read (Elt Ideal) (dotReduce_whole A B) := by
  show (cfg2.win 2).cut (grid2.coords t) ((dat2 (F := Ideal) V c).after 2 t) = _
  rw [after2_2]
  obtain ⟨e0, e1, e2, e3, e4⟩ := dotReduce_idx_facts t
  funext j
  have hj : (j 0).val < 16384 := (j 0).isLt
  have hx : win2_2.xinj (grid2.coords t) j = ix1 (⟨(j 0).val, hj⟩ : Fin 16384) := by
    funext a; match a with | ⟨0, _⟩ => rfl
  rw [View.read_apply]
  refine (congrArg (out2_2 (F := Ideal) (iblk2 V c 0 t) (iblk2 V c 1 t)) hx).trans ?_
  refine (dotReduce_payload_apply (iblk2 V c 0 t) (iblk2 V c 1 t) ⟨(j 0).val, hj⟩).trans ?_
  refine Finset.sum_congr rfl fun f _ => ?_
  have hk : ((((cfg2.win 2).blk t).view.emb j) 0).val = t.val * 16384 + (j 0).val := by
    show win2_2.index t (0 : Fin 1) * 16384 + 1 * (j 0).val = _
    omega
  rw [dotReduce_block_read₀ V c A hA t f ⟨(j 0).val, hj⟩ _ hk, dotReduce_block_read₁ V c B hB t f ⟨(j 0).val, hj⟩ _ hk]

/-- An entry of the output array is in point `t`'s block iff its column is in that block's range. -/
private theorem dotReduce_mem_blk (t : Fin cfg2.N) (i : S1605632.Idx) :
    i ∈ ((cfg2.win 2).blk t).view.set
      ↔ ∀ a : Fin 1, win2_2.index t a * S16384.size a ≤ (i a).val ∧ (i a).val < win2_2.index t a * S16384.size a + S16384.size a := by
  show i ∈ ((View.whole main_v86).slice (win2_2.rect t)).set ↔ _
  rw [View.set_slice_whole, Rect.mem_set_unit]
  exact Iff.rfl

/-- The 98 blocks cover the output array: entry `e` is in block `e / 16384`. -/
private theorem dotReduce_cover (i : S1605632.Idx) :
    ∃ t : Fin cfg2.N, (cfg2.win 2).flush t = true ∧ i ∈ ((cfg2.win 2).blk t).view.set := by
  have hi : (i 0).val < 1605632 := (i 0).isLt
  have hN : cfg2.N = 98 := N_2
  refine ⟨⟨(i 0).val / 16384, by rw [hN]; omega⟩, flush2_2 _, ?_⟩
  rw [dotReduce_mem_blk]
  intro a
  obtain ⟨e0, e1, e2, e3, e4⟩ := dotReduce_idx_facts ⟨(i 0).val / 16384, by rw [hN]; omega⟩
  match a with
  | ⟨0, _⟩ =>
    show win2_2.index _ (0 : Fin 1) * 16384 ≤ (i 0).val ∧ (i 0).val < win2_2.index _ (0 : Fin 1) * 16384 + 16384
    rw [e4]
    show (i 0).val / 16384 * 16384 ≤ (i 0).val ∧ (i 0).val < (i 0).val / 16384 * 16384 + 16384
    omega

theorem region2_array (A B : S32x1605632.Idx → EReal) (hA : V c main_v84 = A) (hB : V c main_v85 = B) :
    (dat2 (F := Ideal) V c).arrAt 2 cfg2.N
      = fun e : S1605632.Idx => ∑ f : Fin 32, A (ix2 f (e 0)) * B (ix2 f (e 0)) := by
  exact (dat2 (F := Ideal) V c).arrAt_eq_of_cover 2 (dotReduce_whole A B)
    (fun t _ => dotReduce_flushed_eq V c A B hA hB t) dotReduce_cover

end Cert.KernelIdeal.Bridge
end
-- ==== Proof.Decode.lean ====
/-
  The edge scores, decoded. For a table Z of 50000 rows by 32 features and an index vector i of length 1600000, both
  programs read, at edge e and feature k, the same entry of Z: the row at the start index i e, read as a signed integer
  and clamped into [0, 49999], and column k. The reference gathers rows of Z; the kernel's host side gathers columns of
  the transpose of Z and pads 5632 zero columns on the right, which an edge below 1600000 never reads. So the sum over
  the 32 features of the products of two such gathers, sliced back to the first 1600000 edges, is the reference's
  product reduced over the feature axis from zero: the two sums over Fin 32 agree term by term.
-/
import proofs.«147280_j47339129537012_1_alg».proof.Proof.Gen.KernelIdeal.Frame
import proofs.«147280_j47339129537012_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

local notation "rowDims" => Cert.ReferenceIdeal.gather_S50000x32_S1600000x1_S1600000x32_1_0_n_n_0_1_132
local notation "colDims" => gather_S32x50000_S1600000x1_S32x1600000_0_1_n_n_1_1_321

/-- the row gather of the table read at (e, k): the table at the start index of e, read signed and clamped into
    [0, 49999], and column k -/
private theorem decode_rowGather_apply (Z : S50000x32.Idx → EReal) (i : S1600000.Idx → BitVec 32) (e : Fin 1600000) (k : Fin 32) :
    Host.gather rowDims Z
        (broadcastInDim Cert.ReferenceIdeal.S1600000x1 ![0] Cert.ReferenceIdeal.Facts₀.bcast_S1600000_S1600000x1_0 i) (ix2 e k)
      = Z (ix2 ⟨min (i (ix1 e)).toInt.toNat 49999, by omega⟩ k) := by
  unfold Host.gather
  congr 1
  funext a
  refine Fin.ext ?_
  match a with
  | ⟨0, _⟩ =>
    show GatherDims.start rowDims _ _ (0 : Fin 2) + GatherDims.batchCoord rowDims _ (0 : Fin 2)
      + GatherDims.offCoord rowDims _ (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap rowDims from List.mem_singleton.mpr rfl)]
    rw [broadcastInDim_apply _ _ i _ (ix1 e) (fun b => by
      obtain rfl : b = 0 := Subsingleton.elim _ _
      rfl)]
    rfl
  | ⟨1, _⟩ =>
    show GatherDims.start rowDims _ _ (1 : Fin 2) + GatherDims.batchCoord rowDims _ (1 : Fin 2)
      + GatherDims.offCoord rowDims _ (1 : Fin 2) = _
    rw [GatherDims.batchCoord_eq_zero _ _ _ List.not_mem_nil]
    unfold GatherDims.start
    rw [dif_neg (show (1 : Fin 2) ∉ GatherDims.startIndexMap rowDims from by decide)]
    unfold GatherDims.offCoord
    rw [dif_pos ((GatherDims.mem_sKept rowDims (1 : Fin 2)).mpr ⟨by decide, List.not_mem_nil⟩)]
    simp only [Nat.zero_add]
    rfl

/-- the column gather of a 32 × 50000 array read at (k, e): row k and the column at the start index of e, read signed
    and clamped into [0, 49999] -/
private theorem decode_colGather_apply (X : S32x50000.Idx → EReal) (i : S1600000.Idx → BitVec 32) (k : Fin 32) (e : Fin 1600000) :
    Host.gather colDims X (broadcastInDim S1600000x1 ![0] bcast_S1600000_S1600000x1_0 i) (ix2 k e)
      = X (ix2 k ⟨min (i (ix1 e)).toInt.toNat 49999, by omega⟩) := by
  unfold Host.gather
  congr 1
  funext a
  refine Fin.ext ?_
  match a with
  | ⟨0, _⟩ =>
    show GatherDims.start colDims _ _ (0 : Fin 2) + GatherDims.batchCoord colDims _ (0 : Fin 2)
      + GatherDims.offCoord colDims _ (0 : Fin 2) = _
    rw [GatherDims.batchCoord_eq_zero _ _ _ List.not_mem_nil]
    unfold GatherDims.start
    rw [dif_neg (show (0 : Fin 2) ∉ GatherDims.startIndexMap colDims from by decide)]
    unfold GatherDims.offCoord
    rw [dif_pos ((GatherDims.mem_sKept colDims (0 : Fin 2)).mpr ⟨by decide, List.not_mem_nil⟩)]
    simp only [Nat.zero_add]
    rfl
  | ⟨1, _⟩ =>
    show GatherDims.start colDims _ _ (1 : Fin 2) + GatherDims.batchCoord colDims _ (1 : Fin 2)
      + GatherDims.offCoord colDims _ (1 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap colDims from List.mem_singleton.mpr rfl)]
    rw [broadcastInDim_apply _ _ i _ (ix1 e) (fun b => by
      obtain rfl : b = 0 := Subsingleton.elim _ _
      rfl)]
    rfl

/-- columns of the transposed table gathered at wrapped indices, padded with zeros on the right -/
def paddedCols (Z : S50000x32.Idx → EReal) (i : S1600000.Idx → BitVec 32) : S32x1605632.Idx → EReal :=
  pad S32x1605632 ![0, 0] ![0, 5632] ![0, 0]
    (Host.gather gather_S32x50000_S1600000x1_S32x1600000_0_1_n_n_1_1_321
      (transpose S32x50000 [1, 0] Z transposes_S50000x32_S32x50000_1_0)
      (broadcastInDim S1600000x1 ![0] bcast_S1600000_S1600000x1_0 i))
    (sitofp (F := Ideal) .f32 (constantI S_ 32 0#32)) pads_S32x1600000_S32x1605632_000_056320 h_S_

/-- the padded column gather read at (k, e) inside the unpadded box: the table at the clamped start index of e and
    column k -/
private theorem decode_paddedCols_apply (Z : S50000x32.Idx → EReal) (i : S1600000.Idx → BitVec 32) (k : Fin 32) (e : Fin 1600000) :
    paddedCols Z i (ix2 k ⟨e.val, by have := e.isLt; omega⟩)
      = Z (ix2 ⟨min (i (ix1 e)).toInt.toNat 49999, by omega⟩ k) := by
  unfold paddedCols pad
  rw [dif_pos (fun a => match a with
    | ⟨0, _⟩ => ⟨Nat.zero_le _, Nat.mod_one _, by show (k.val - 0) / (0 + 1) < 32; have := k.isLt; omega⟩
    | ⟨1, _⟩ => ⟨Nat.zero_le _, Nat.mod_one _, by show (e.val - 0) / (0 + 1) < 1600000; have := e.isLt; omega⟩)]
  have hidx : (fun a : Fin S32x1600000.rank =>
      (⟨((ix2 k (⟨e.val, by have := e.isLt; omega⟩ : Fin 1605632)
          (a.cast pads_S32x1600000_S32x1605632_000_056320.1)).val - (![0, 0] : Fin 2 → Nat) a) / ((![0, 0] : Fin 2 → Nat) a + 1),
        by match a with
          | ⟨0, _⟩ => show (k.val - 0) / (0 + 1) < 32; have := k.isLt; omega
          | ⟨1, _⟩ => show (e.val - 0) / (0 + 1) < 1600000; have := e.isLt; omega⟩ : Fin (S32x1600000.size a)))
      = ix2 k e := by
    funext a
    refine Fin.ext ?_
    match a with
    | ⟨0, _⟩ => show (k.val - 0) / (0 + 1) = k.val; omega
    | ⟨1, _⟩ => show (e.val - 0) / (0 + 1) = e.val; omega
  refine (congrArg _ hidx).trans ?_
  rw [decode_colGather_apply]
  exact transpose_apply _ Z _ _ _ fun c => match c with | ⟨0, _⟩ => rfl | ⟨1, _⟩ => rfl

theorem decode_eq (Z : S50000x32.Idx → EReal) (i0 i1 : S1600000.Idx → BitVec 32) :
    extractStridedSlice S1600000 ![0]
        (fun e : S1605632.Idx => ∑ f : Fin 32, paddedCols Z i0 (ix2 f (e 0)) * paddedCols Z i1 (ix2 f (e 0)))
        slices_S1605632_S1600000_0
      = Host.reduceAdd (F := Ideal)
          (mulf (F := Ideal)
            (Host.gather Cert.ReferenceIdeal.gather_S50000x32_S1600000x1_S1600000x32_1_0_n_n_0_1_132 Z
              (broadcastInDim Cert.ReferenceIdeal.S1600000x1 ![0] Cert.ReferenceIdeal.Facts₀.bcast_S1600000_S1600000x1_0 i0))
            (Host.gather Cert.ReferenceIdeal.gather_S50000x32_S1600000x1_S1600000x32_1_0_n_n_0_1_132 Z
              (broadcastInDim Cert.ReferenceIdeal.S1600000x1 ![0] Cert.ReferenceIdeal.Facts₀.bcast_S1600000_S1600000x1_0 i1)))
          (constant (F := Ideal) S_ .f32 0x00000000#32) Cert.ReferenceIdeal.Facts₀.reducesTo_S1600000x32_S1600000_d1 Cert.ReferenceIdeal.Facts₀.h_S_ := by
  funext y
  obtain ⟨e, rfl⟩ : ∃ e : Fin 1600000, y = ix1 e := ⟨y 0, eq_ix1 y⟩
  have hred : Cert.ReferenceIdeal.S1600000x32.Reduces [1] Cert.ReferenceIdeal.S1600000 := by decide
  rw [extractStridedSlice_apply _ _ _ (ix1 e) (ix1 (⟨e.val, by have := e.isLt; omega⟩ : Fin 1605632)) (fun a => by
    obtain rfl : a = 0 := Subsingleton.elim _ _
    show e.val = 0 + e.val
    omega)]
  show (∑ f : Fin 32, paddedCols Z i0 (ix2 f ⟨e.val, _⟩) * paddedCols Z i1 (ix2 f ⟨e.val, _⟩))
    = Ideal.hostReduceAdd Cert.ReferenceIdeal.Facts₀.reducesTo_S1600000x32_S1600000_d1 _ (Ideal.ofBits .f32 0x00000000#32) (ix1 e)
  rw [Ideal.hostReduceAdd_single _ hred, Ideal.ofBits_zero_f32, zero_add]
  refine Finset.sum_congr rfl fun f _ => ?_
  rw [decode_paddedCols_apply, decode_paddedCols_apply]
  have hl : hred.lift (ix1 e) f = ix2 e f := by
    funext a
    refine Fin.ext ?_
    match a with
    | ⟨0, _⟩ => rfl
    | ⟨1, _⟩ => rfl
  rw [hl, mulf_apply, decode_rowGather_apply, decode_rowGather_apply]

end Cert.KernelIdeal.Bridge
end
-- ==== Proof.KernelValue.lean ====
/-
  The idealized kernel's returned array is the reference's last stage of the same arguments.
  Followed boundary by boundary: the first product's array is the reference's first `dot_general`; the stretch after it
  makes the reference's hidden layer; the second product's array is the second `dot_general`; the stretch after that
  makes the node embeddings Z and the two zero-padded column gathers of Zᵀ at the decode indices; the third region sums,
  column by column, the products of the two over the 32 features; the last stretch keeps the first 1600000 sums.
  Gathering columns of Zᵀ or rows of Z at one clamped index reads the same 32 numbers, the padding is cut off again,
  and a finite sum does not depend on its order: that is the reference's row gather, product and feature reduction.
-/
import proofs.«147280_j47339129537012_1_alg».proof.Proof.HostPrefix
import proofs.«147280_j47339129537012_1_alg».proof.Proof.HostLayers
import proofs.«147280_j47339129537012_1_alg».proof.Proof.RegionMatmul
import proofs.«147280_j47339129537012_1_alg».proof.Proof.RegionDotReduce
import proofs.«147280_j47339129537012_1_alg».proof.Proof.Decode

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ### Across the first region -/

theorem exit0_product : W4 m ρ c (Proc.devRef .tc main_v30) = Cert.ReferenceIdeal.ReadP.val_main_v4 (F := Ideal) (m ((c : Thread nD τ).loc main_arg0)) (m ((c : Thread nD τ).loc main_arg1)) :=
  (W4_arr m ρ c 2).trans (region0_array (V3 m ρ) c _ _ (entry0_arg0 m ρ c) (entry0_arg1 m ρ c))
theorem exit0_src : W4 m ρ c (Proc.devRef .tc main_v5) = Cert.ReferenceIdeal.ReadP.val_main_v6 (F := Ideal) (m ((c : Thread nD τ).loc main_arg5)) :=
  (W4_of_ne m ρ c main_v5 (by decide)).trans (entry0_src m ρ c)
theorem exit0_dst : W4 m ρ c (Proc.devRef .tc main_v6) = Cert.ReferenceIdeal.ReadP.val_main_v7 (F := Ideal) (m ((c : Thread nD τ).loc main_arg5)) :=
  (W4_of_ne m ρ c main_v6 (by decide)).trans (entry0_dst m ρ c)
theorem exit0_norm : W4 m ρ c (Proc.devRef .tc main_v29) = Cert.ReferenceIdeal.ReadP.val_main_v30 (F := Ideal) (m ((c : Thread nD τ).loc main_arg5)) :=
  (W4_of_ne m ρ c main_v29 (by decide)).trans (entry0_norm m ρ c)
theorem exit0_arg2 : W4 m ρ c (Proc.devRef .tc main_arg2) = (m ((c : Thread nD τ).loc main_arg2)) :=
  (W4_of_ne m ρ c main_arg2 (by decide)).trans (entry0_arg2 m ρ c)
theorem exit0_arg3 : W4 m ρ c (Proc.devRef .tc main_arg3) = (m ((c : Thread nD τ).loc main_arg3)) :=
  (W4_of_ne m ρ c main_arg3 (by decide)).trans (entry0_arg3 m ρ c)
theorem exit0_arg4 : W4 m ρ c (Proc.devRef .tc main_arg4) = (m ((c : Thread nD τ).loc main_arg4)) :=
  (W4_of_ne m ρ c main_arg4 (by decide)).trans (entry0_arg4 m ρ c)
theorem exit0_arg6 : W4 m ρ c (Proc.devRef .tc main_arg6) = (m ((c : Thread nD τ).loc main_arg6)) :=
  (W4_of_ne m ρ c main_arg6 (by decide)).trans (entry0_arg6 m ρ c)

/-! ### The second region's entry and exit -/

theorem entry1_hidden : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg5)) :=
  hidden_of (W4 m ρ c) _ _ _ _ (exit0_product m ρ c) (exit0_src m ρ c) (exit0_dst m ρ c) (exit0_norm m ρ c) (exit0_arg2 m ρ c)
theorem entry1_arg3 : W6 m ρ c (Proc.devRef .tc main_arg3) = (m ((c : Thread nD τ).loc main_arg3)) := (mid_keeps_arg3 (W4 m ρ c)).trans (exit0_arg3 m ρ c)

theorem exit1_product : W7 m ρ c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (W7_arr m ρ c 2).trans (region1_array (V6 m ρ) c _ _ (entry1_hidden m ρ c) (entry1_arg3 m ρ c))
theorem exit1_src : W7 m ρ c (Proc.devRef .tc main_v5) = Cert.ReferenceIdeal.ReadP.val_main_v6 (F := Ideal) (m ((c : Thread nD τ).loc main_arg5)) :=
  (W7_of_ne m ρ c main_v5 (by decide)).trans ((mid_keeps_src (W4 m ρ c)).trans (exit0_src m ρ c))
theorem exit1_dst : W7 m ρ c (Proc.devRef .tc main_v6) = Cert.ReferenceIdeal.ReadP.val_main_v7 (F := Ideal) (m ((c : Thread nD τ).loc main_arg5)) :=
  (W7_of_ne m ρ c main_v6 (by decide)).trans ((mid_keeps_dst (W4 m ρ c)).trans (exit0_dst m ρ c))
theorem exit1_norm : W7 m ρ c (Proc.devRef .tc main_v29) = Cert.ReferenceIdeal.ReadP.val_main_v30 (F := Ideal) (m ((c : Thread nD τ).loc main_arg5)) :=
  (W7_of_ne m ρ c main_v29 (by decide)).trans ((mid_keeps_norm (W4 m ρ c)).trans (exit0_norm m ρ c))
theorem exit1_arg4 : W7 m ρ c (Proc.devRef .tc main_arg4) = (m ((c : Thread nD τ).loc main_arg4)) :=
  (W7_of_ne m ρ c main_arg4 (by decide)).trans ((mid_keeps_arg4 (W4 m ρ c)).trans (exit0_arg4 m ρ c))
theorem exit1_arg6 : W7 m ρ c (Proc.devRef .tc main_arg6) = (m ((c : Thread nD τ).loc main_arg6)) :=
  (W7_of_ne m ρ c main_arg6 (by decide)).trans ((mid_keeps_arg6 (W4 m ρ c)).trans (exit0_arg6 m ρ c))

/-! ### The third region's entry and exit -/

/-- The node embeddings: the reference's second layer. -/
abbrev embeddings : (⟨Cert.ReferenceIdeal.S50000x32, .f32⟩ : BufTy).Contents (Elt Ideal) :=
  Cert.ReferenceIdeal.ReadP.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem entry2_left : W11 m ρ c (Proc.devRef .tc main_v84) = paddedColsAt (F := Ideal) (embeddings m c) (Cert.ReferenceIdeal.ReadP.val_main_v97 (F := Ideal) (m ((c : Thread nD τ).loc main_arg6))) :=
  colsLeft_of (W7 m ρ c) _ _ _ _ _ _ _ (exit1_product m ρ c) (exit1_src m ρ c) (exit1_dst m ρ c) (exit1_norm m ρ c) (exit1_arg4 m ρ c) (exit1_arg6 m ρ c)
theorem entry2_right : W11 m ρ c (Proc.devRef .tc main_v85) = paddedColsAt (F := Ideal) (embeddings m c) (Cert.ReferenceIdeal.ReadP.val_main_v106 (F := Ideal) (m ((c : Thread nD τ).loc main_arg6))) :=
  colsRight_of (W7 m ρ c) _ _ _ _ _ _ _ (exit1_product m ρ c) (exit1_src m ρ c) (exit1_dst m ρ c) (exit1_norm m ρ c) (exit1_arg4 m ρ c) (exit1_arg6 m ρ c)

theorem exit2_sums : W12 m ρ c (Proc.devRef .tc main_v86)
    = fun e : S1605632.Idx => ∑ f : Fin 32,
        paddedCols (embeddings m c) (Cert.ReferenceIdeal.ReadP.val_main_v97 (F := Ideal) (m ((c : Thread nD τ).loc main_arg6))) (ValueIdx.ix2 f (e 0))
          * paddedCols (embeddings m c) (Cert.ReferenceIdeal.ReadP.val_main_v106 (F := Ideal) (m ((c : Thread nD τ).loc main_arg6))) (ValueIdx.ix2 f (e 0)) :=
  (W12_arr m ρ c 2).trans (region2_array (V11 m ρ) c _ _ (entry2_left m ρ c) (entry2_right m ρ c))

/-! ### The returned array -/

theorem result_eq : W13 m ρ c (Proc.devRef .tc main_v87)
    = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (tail_of (W12 m ρ c)).trans ?_
  rw [exit2_sums m ρ c]
  exact decode_eq (embeddings m c) (Cert.ReferenceIdeal.ReadP.val_main_v97 (F := Ideal) (m ((c : Thread nD τ).loc main_arg6))) (Cert.ReferenceIdeal.ReadP.val_main_v106 (F := Ideal) (m ((c : Thread nD τ).loc main_arg6)))

end Cert.KernelIdeal.Bridge

end
-- ==== Proof.RefStages.lean ====
/-
  The reference's stages, read one operation at a time (patched copies of its generated run and read-at-an-index modules).
-/
import proofs.«147280_j47339129537012_1_alg».proof.Proof.RefRunPatched
import proofs.«147280_j47339129537012_1_alg».proof.Proof.RefReadPatched
-- ==== Proof.lean ====
/-
  Two layers of graph convolution and an inner-product decoder, against the same network written with plain array
  operations. Per layer: Y = X·W; every edge (s, t), self loops appended, sends row s of Y scaled by
  d(s)^(-1/2)·d(t)^(-1/2) to row t (d the in-degree, the factor zero where it is not positive); the bias is added; the first
  layer is clamped at zero. The decoder returns, for every decode pair (a, b), the sum over the 32 features of
  Z[a, f]·Z[b, f].

  The kernel computes the two products X·W in row blocks of 5000 with operands cast to bf16, and the decoder's sums in
  column blocks of 16384 over the transposed, column-gathered and zero-padded embeddings; everything else it does with
  the reference's own host operations. Read as extended reals a cast is the identity, a product block by block is the
  whole product, and summing a column of products of gathered columns is summing the products of gathered rows; no law
  of the extended reals beyond reordering a finite sum is used, so the inputs' finiteness is never opened.

  The frames of the two kernel programs are the generated ones; the reference's frame and value are its generated run;
  the idealization rewrote nothing, so there is nothing to preserve.
-/
import proofs.«147280_j47339129537012_1_alg».proof.Defs
import proofs.«147280_j47339129537012_1_alg».proof.Proof.Gen.Kernel
import proofs.«147280_j47339129537012_1_alg».proof.Proof.Gen.Kernel.Frame
import proofs.«147280_j47339129537012_1_alg».proof.Proof.Gen.KernelIdeal
import proofs.«147280_j47339129537012_1_alg».proof.Proof.Gen.KernelIdeal.Frame
import proofs.«147280_j47339129537012_1_alg».proof.Proof.Gen.ReferenceIdeal
import proofs.«147280_j47339129537012_1_alg».proof.Proof.Gen.Pre_finite_inputs
import proofs.«147280_j47339129537012_1_alg».proof.Proof.KernelResultRun
import proofs.«147280_j47339129537012_1_alg».proof.Proof.KernelValue
import proofs.«147280_j47339129537012_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments. -/
theorem algebraic : Cert.algebraic_KernelIdeal_ReferenceIdeal := by
  intro m ρ m' ρ' _ hagree
  refine ⟨fun c => Cert.KernelIdeal.Gen.W13 m ρ c (Proc.devRef .tc Cert.KernelIdeal.main_v87),
    Cert.KernelIdeal.ResultRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v110_eq, h0, h1, h2, h3, h4, h5, h6]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
